-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x7168 : Shape := ⟨2, ![64, 7168]⟩
abbrev S18432x7168 : Shape := ⟨2, ![18432, 7168]⟩
abbrev S144x56 : Shape := ⟨2, ![144, 56]⟩
abbrev S_ : Shape := ⟨0, ![]⟩

class Facts : Prop where
  bcast_S_S64x7168 : S_.BroadcastsInDim S64x7168 (![] : Fin 0 → Fin S64x7168.rank)
  reducesTo_S64x7168_S_d0_1 : S64x7168.ReducesTo [0, 1] S_
  h_S_ : 0 < S_.numel
  bcast_S_S18432x7168 : S_.BroadcastsInDim S18432x7168 (![] : Fin 0 → Fin S18432x7168.rank)
  reducesTo_S18432x7168_S_d0_1 : S18432x7168.ReducesTo [0, 1] S_
  bcast_S_S144x56 : S_.BroadcastsInDim S144x56 (![] : Fin 0 → Fin S144x56.rank)
  reducesTo_S144x56_S_d0_1 : S144x56.ReducesTo [0, 1] S_

variable [Facts]

def fn {F : FTy → Type} [FloatOps F] (main_arg0 : FVec F S64x7168 .f32) (main_arg1 : FVec F S18432x7168 .f32) (main_arg2 : FVec F S144x56 .f32) : IVec S_ 1 :=
  let main_v0 : FVec F S64x7168 .f32 := Host.absf main_arg0
  let main_cst : FVec F S_ .f32 := constant S_ .f32 0x7F800000#32
  let main_v1 : FVec F S64x7168 .f32 := broadcastInDim S64x7168 ![] bcast_S_S64x7168 main_cst
  let main_v2 : IVec S64x7168 1 := cmpf .olt main_v0 main_v1
  let main_c : IVec S_ 1 := constantI S_ 1 1#1
  let main_v3 : IVec S_ 1 := (fun x v => Host.reduce IntOp.andi x v reducesTo_S64x7168_S_d0_1 h_S_) main_v2 main_c
  let main_v4 : FVec F S18432x7168 .f32 := Host.absf main_arg1
  let main_cst_0 : FVec F S_ .f32 := constant S_ .f32 0x7F800000#32
  let main_v5 : FVec F S18432x7168 .f32 := broadcastInDim S18432x7168 ![] bcast_S_S18432x7168 main_cst_0
  let main_v6 : IVec S18432x7168 1 := cmpf .olt main_v4 main_v5
  let main_c_1 : IVec S_ 1 := constantI S_ 1 1#1
  let main_v7 : IVec S_ 1 := (fun x v => Host.reduce IntOp.andi x v reducesTo_S18432x7168_S_d0_1 h_S_) main_v6 main_c_1
  let main_v8 : IVec S_ 1 := andi main_v3 main_v7
  let main_v9 : FVec F S144x56 .f32 := Host.absf main_arg2
  let main_cst_2 : FVec F S_ .f32 := constant S_ .f32 0x7F800000#32
  let main_v10 : FVec F S144x56 .f32 := broadcastInDim S144x56 ![] bcast_S_S144x56 main_cst_2
  let main_v11 : IVec S144x56 1 := cmpf .olt main_v9 main_v10
  let main_c_3 : IVec S_ 1 := constantI S_ 1 1#1
  let main_v12 : IVec S_ 1 := (fun x v => Host.reduce IntOp.andi x v reducesTo_S144x56_S_d0_1 h_S_) main_v11 main_c_3
  let main_v13 : IVec S_ 1 := andi main_v8 main_v12
  main_v13
-- ==== Kernel.lean ====
abbrev S64x7168 : Shape := ⟨2, ![64, 7168]⟩
abbrev S18432x7168 : Shape := ⟨2, ![18432, 7168]⟩
abbrev S144x56 : Shape := ⟨2, ![144, 56]⟩
abbrev S64x18432 : Shape := ⟨2, ![64, 18432]⟩
abbrev S1024x7168 : Shape := ⟨2, ![1024, 7168]⟩
abbrev S8x56 : Shape := ⟨2, ![8, 56]⟩
abbrev S64x1024 : Shape := ⟨2, ![64, 1024]⟩
abbrev S1024x128 : Shape := ⟨2, ![1024, 128]⟩
abbrev S8x1 : Shape := ⟨2, ![8, 1]⟩
abbrev S8x1x1 : Shape := ⟨3, ![8, 1, 1]⟩
abbrev S8x128x1 : Shape := ⟨3, ![8, 128, 1]⟩
abbrev S1024x1 : Shape := ⟨2, ![1024, 1]⟩
abbrev S64x128 : Shape := ⟨2, ![64, 128]⟩

abbrev nBuf : Space → Nat
  | .hbm => 4
  | .vmem => 6
  | .smem => 0
  | _ => 0

abbrev bufTy : (tb : Table) → Fin (tcTables nBuf tb) → BufTy
  | .hbm, ⟨0, _⟩ => ⟨S64x7168, .f32⟩
  | .hbm, ⟨1, _⟩ => ⟨S18432x7168, .f32⟩
  | .hbm, ⟨2, _⟩ => ⟨S144x56, .f32⟩
  | .hbm, ⟨3, _⟩ => ⟨S64x18432, .f32⟩
  | .local _ .vmem, ⟨0, _⟩ => ⟨S64x7168, .f32⟩
  | .local _ .vmem, ⟨1, _⟩ => ⟨S1024x7168, .f32⟩
  | .local _ .vmem, ⟨2, _⟩ => ⟨S8x56, .f32⟩
  | .local _ .vmem, ⟨3, _⟩ => ⟨S8x56, .f32⟩
  | .local _ .vmem, ⟨4, _⟩ => ⟨S64x1024, .f32⟩
  | .local _ .vmem, ⟨5, _⟩ => ⟨S64x1024, .f32⟩
  | _, _ => ⟨S64x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 2 → Memref sig .tc .vmem S8x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x7168_S1024x128_0_0 : ∀ a, (![0, 0] : Fin 2 → Nat) a + S1024x128.size a ≤ S1024x7168.size a
  h_S1024x128 : 0 < S1024x128.numel
  inb_S8x56_S8x1_0_0 : ∀ a, (![0, 0] : Fin 2 → Nat) a + S8x1.size a ≤ S8x56.size a
  h_S8x1 : 0 < S8x1.numel
  shapeCasts_S8x1_S8x1x1 : S8x1.ShapeCasts S8x1x1
  broadcasts_S8x1x1_S8x128x1 : S8x1x1.Broadcasts S8x128x1
  shapeCasts_S8x128x1_S1024x1 : S8x128x1.ShapeCasts S1024x1
  broadcasts_S1024x1_S1024x128 : S1024x1.Broadcasts S1024x128
  bitsLt_bf16_f32 : FTy.bits .bf16 < FTy.bits .f32
  inb_S64x7168_S64x128_0_0 : ∀ a, (![0, 0] : Fin 2 → Nat) a + S64x128.size a ≤ S64x7168.size a
  h_S64x128 : 0 < S64x128.numel
  inb_S1024x7168_S1024x128_0_128 : ∀ a, (![0, 128] : Fin 2 → Nat) a + S1024x128.size a ≤ S1024x7168.size a
  inb_S8x56_S8x1_0_1 : ∀ a, (![0, 1] : Fin 2 → Nat) a + S8x1.size a ≤ S8x56.size a
  inb_S64x7168_S64x128_0_128 : ∀ a, (![0, 128] : Fin 2 → Nat) a + S64x128.size a ≤ S64x7168.size a
  inb_S1024x7168_S1024x128_0_256 : ∀ a, (![0, 256] : Fin 2 → Nat) a + S1024x128.size a ≤ S1024x7168.size a
  inb_S8x56_S8x1_0_2 : ∀ a, (![0, 2] : Fin 2 → Nat) a + S8x1.size a ≤ S8x56.size a
  inb_S64x7168_S64x128_0_256 : ∀ a, (![0, 256] : Fin 2 → Nat) a + S64x128.size a ≤ S64x7168.size a
  inb_S1024x7168_S1024x128_0_384 : ∀ a, (![0, 384] : Fin 2 → Nat) a + S1024x128.size a ≤ S1024x7168.size a
  inb_S8x56_S8x1_0_3 : ∀ a, (![0, 3] : Fin 2 → Nat) a + S8x1.size a ≤ S8x56.size a
  inb_S64x7168_S64x128_0_384 : ∀ a, (![0, 384] : Fin 2 → Nat) a + S64x128.size a ≤ S64x7168.size a
  inb_S1024x7168_S1024x128_0_512 : ∀ a, (![0, 512] : Fin 2 → Nat) a + S1024x128.size a ≤ S1024x7168.size a
  inb_S8x56_S8x1_0_4 : ∀ a, (![0, 4] : Fin 2 → Nat) a + S8x1.size a ≤ S8x56.size a
  inb_S64x7168_S64x128_0_512 : ∀ a, (![0, 512] : Fin 2 → Nat) a + S64x128.size a ≤ S64x7168.size a
  inb_S1024x7168_S1024x128_0_640 : ∀ a, (![0, 640] : Fin 2 → Nat) a + S1024x128.size a ≤ S1024x7168.size a
  inb_S8x56_S8x1_0_5 : ∀ a, (![0, 5] : Fin 2 → Nat) a + S8x1.size a ≤ S8x56.size a
  inb_S64x7168_S64x128_0_640 : ∀ a, (![0, 640] : Fin 2 → Nat) a + S64x128.size a ≤ S64x7168.size a
  inb_S1024x7168_S1024x128_0_768 : ∀ a, (![0, 768] : Fin 2 → Nat) a + S1024x128.size a ≤ S1024x7168.size a
  inb_S8x56_S8x1_0_6 : ∀ a, (![0, 6] : Fin 2 → Nat) a + S8x1.size a ≤ S8x56.size a
  inb_S64x7168_S64x128_0_768 : ∀ a, (![0, 768] : Fin 2 → Nat) a + S64x128.size a ≤ S64x7168.size a
  inb_S1024x7168_S1024x128_0_896 : ∀ a, (![0, 896] : Fin 2 → Nat) a + S1024x128.size a ≤ S1024x7168.size a
  inb_S8x56_S8x1_0_7 : ∀ a, (![0, 7] : Fin 2 → Nat) a + S8x1.size a ≤ S8x56.size a
  inb_S64x7168_S64x128_0_896 : ∀ a, (![0, 896] : Fin 2 → Nat) a + S64x128.size a ≤ S64x7168.size a
  inb_S1024x7168_S1024x128_0_1024 : ∀ a, (![0, 1024] : Fin 2 → Nat) a + S1024x128.size a ≤ S1024x7168.size a
  inb_S8x56_S8x1_0_8 : ∀ a, (![0, 8] : Fin 2 → Nat) a + S8x1.size a ≤ S8x56.size a
  inb_S64x7168_S64x128_0_1024 : ∀ a, (![0, 1024] : Fin 2 → Nat) a + S64x128.size a ≤ S64x7168.size a
  inb_S1024x7168_S1024x128_0_1152 : ∀ a, (![0, 1152] : Fin 2 → Nat) a + S1024x128.size a ≤ S1024x7168.size a
  inb_S8x56_S8x1_0_9 : ∀ a, (![0, 9] : Fin 2 → Nat) a + S8x1.size a ≤ S8x56.size a
  inb_S64x7168_S64x128_0_1152 : ∀ a, (![0, 1152] : Fin 2 → Nat) a + S64x128.size a ≤ S64x7168.size a
  inb_S1024x7168_S1024x128_0_1280 : ∀ a, (![0, 1280] : Fin 2 → Nat) a + S1024x128.size a ≤ S1024x7168.size a
  inb_S8x56_S8x1_0_10 : ∀ a, (![0, 10] : Fin 2 → Nat) a + S8x1.size a ≤ S8x56.size a
  inb_S64x7168_S64x128_0_1280 : ∀ a, (![0, 1280] : Fin 2 → Nat) a + S64x128.size a ≤ S64x7168.size a
  inb_S1024x7168_S1024x128_0_1408 : ∀ a, (![0, 1408] : Fin 2 → Nat) a + S1024x128.size a ≤ S1024x7168.size a
  inb_S8x56_S8x1_0_11 : ∀ a, (![0, 11] : Fin 2 → Nat) a + S8x1.size a ≤ S8x56.size a
  inb_S64x7168_S64x128_0_1408 : ∀ a, (![0, 1408] : Fin 2 → Nat) a + S64x128.size a ≤ S64x7168.size a
  inb_S1024x7168_S1024x128_0_1536 : ∀ a, (![0, 1536] : Fin 2 → Nat) a + S1024x128.size a ≤ S1024x7168.size a
  inb_S8x56_S8x1_0_12 : ∀ a, (![0, 12] : Fin 2 → Nat) a + S8x1.size a ≤ S8x56.size a
  inb_S64x7168_S64x128_0_1536 : ∀ a, (![0, 1536] : Fin 2 → Nat) a + S64x128.size a ≤ S64x7168.size a
  inb_S1024x7168_S1024x128_0_1664 : ∀ a, (![0, 1664] : Fin 2 → Nat) a + S1024x128.size a ≤ S1024x7168.size a
  inb_S8x56_S8x1_0_13 : ∀ a, (![0, 13] : Fin 2 → Nat) a + S8x1.size a ≤ S8x56.size a
  inb_S64x7168_S64x128_0_1664 : ∀ a, (![0, 1664] : Fin 2 → Nat) a + S64x128.size a ≤ S64x7168.size a
  inb_S1024x7168_S1024x128_0_1792 : ∀ a, (![0, 1792] : Fin 2 → Nat) a + S1024x128.size a ≤ S1024x7168.size a
  inb_S8x56_S8x1_0_14 : ∀ a, (![0, 14] : Fin 2 → Nat) a + S8x1.size a ≤ S8x56.size a
  inb_S64x7168_S64x128_0_1792 : ∀ a, (![0, 1792] : Fin 2 → Nat) a + S64x128.size a ≤ S64x7168.size a
  inb_S1024x7168_S1024x128_0_1920 : ∀ a, (![0, 1920] : Fin 2 → Nat) a + S1024x128.size a ≤ S1024x7168.size a
  inb_S8x56_S8x1_0_15 : ∀ a, (![0, 15] : Fin 2 → Nat) a + S8x1.size a ≤ S8x56.size a
  inb_S64x7168_S64x128_0_1920 : ∀ a, (![0, 1920] : Fin 2 → Nat) a + S64x128.size a ≤ S64x7168.size a
  inb_S1024x7168_S1024x128_0_2048 : ∀ a, (![0, 2048] : Fin 2 → Nat) a + S1024x128.size a ≤ S1024x7168.size a
  inb_S8x56_S8x1_0_16 : ∀ a, (![0, 16] : Fin 2 → Nat) a + S8x1.size a ≤ S8x56.size a
  inb_S64x7168_S64x128_0_2048 : ∀ a, (![0, 2048] : Fin 2 → Nat) a + S64x128.size a ≤ S64x7168.size a
  inb_S1024x7168_S1024x128_0_2176 : ∀ a, (![0, 2176] : Fin 2 → Nat) a + S1024x128.size a ≤ S1024x7168.size a
  inb_S8x56_S8x1_0_17 : ∀ a, (![0, 17] : Fin 2 → Nat) a + S8x1.size a ≤ S8x56.size a
  inb_S64x7168_S64x128_0_2176 : ∀ a, (![0, 2176] : Fin 2 → Nat) a + S64x128.size a ≤ S64x7168.size a
  inb_S1024x7168_S1024x128_0_2304 : ∀ a, (![0, 2304] : Fin 2 → Nat) a + S1024x128.size a ≤ S1024x7168.size a
  inb_S8x56_S8x1_0_18 : ∀ a, (![0, 18] : Fin 2 → Nat) a + S8x1.size a ≤ S8x56.size a
  inb_S64x7168_S64x128_0_2304 : ∀ a, (![0, 2304] : Fin 2 → Nat) a + S64x128.size a ≤ S64x7168.size a
  inb_S1024x7168_S1024x128_0_2432 : ∀ a, (![0, 2432] : Fin 2 → Nat) a + S1024x128.size a ≤ S1024x7168.size a
  inb_S8x56_S8x1_0_19 : ∀ a, (![0, 19] : Fin 2 → Nat) a + S8x1.size a ≤ S8x56.size a
  inb_S64x7168_S64x128_0_2432 : ∀ a, (![0, 2432] : Fin 2 → Nat) a + S64x128.size a ≤ S64x7168.size a
  inb_S1024x7168_S1024x128_0_2560 : ∀ a, (![0, 2560] : Fin 2 → Nat) a + S1024x128.size a ≤ S1024x7168.size a
  inb_S8x56_S8x1_0_20 : ∀ a, (![0, 20] : Fin 2 → Nat) a + S8x1.size a ≤ S8x56.size a
  inb_S64x7168_S64x128_0_2560 : ∀ a, (![0, 2560] : Fin 2 → Nat) a + S64x128.size a ≤ S64x7168.size a
  inb_S1024x7168_S1024x128_0_2688 : ∀ a, (![0, 2688] : Fin 2 → Nat) a + S1024x128.size a ≤ S1024x7168.size a
  inb_S8x56_S8x1_0_21 : ∀ a, (![0, 21] : Fin 2 → Nat) a + S8x1.size a ≤ S8x56.size a
  inb_S64x7168_S64x128_0_2688 : ∀ a, (![0, 2688] : Fin 2 → Nat) a + S64x128.size a ≤ S64x7168.size a
  inb_S1024x7168_S1024x128_0_2816 : ∀ a, (![0, 2816] : Fin 2 → Nat) a + S1024x128.size a ≤ S1024x7168.size a
  inb_S8x56_S8x1_0_22 : ∀ a, (![0, 22] : Fin 2 → Nat) a + S8x1.size a ≤ S8x56.size a
  inb_S64x7168_S64x128_0_2816 : ∀ a, (![0, 2816] : Fin 2 → Nat) a + S64x128.size a ≤ S64x7168.size a
  inb_S1024x7168_S1024x128_0_2944 : ∀ a, (![0, 2944] : Fin 2 → Nat) a + S1024x128.size a ≤ S1024x7168.size a
  inb_S8x56_S8x1_0_23 : ∀ a, (![0, 23] : Fin 2 → Nat) a + S8x1.size a ≤ S8x56.size a
  inb_S64x7168_S64x128_0_2944 : ∀ a, (![0, 2944] : Fin 2 → Nat) a + S64x128.size a ≤ S64x7168.size a
  inb_S1024x7168_S1024x128_0_3072 : ∀ a, (![0, 3072] : Fin 2 → Nat) a + S1024x128.size a ≤ S1024x7168.size a
  inb_S8x56_S8x1_0_24 : ∀ a, (![0, 24] : Fin 2 → Nat) a + S8x1.size a ≤ S8x56.size a
  inb_S64x7168_S64x128_0_3072 : ∀ a, (![0, 3072] : Fin 2 → Nat) a + S64x128.size a ≤ S64x7168.size a
  inb_S1024x7168_S1024x128_0_3200 : ∀ a, (![0, 3200] : Fin 2 → Nat) a + S1024x128.size a ≤ S1024x7168.size a
  inb_S8x56_S8x1_0_25 : ∀ a, (![0, 25] : Fin 2 → Nat) a + S8x1.size a ≤ S8x56.size a
  inb_S64x7168_S64x128_0_3200 : ∀ a, (![0, 3200] : Fin 2 → Nat) a + S64x128.size a ≤ S64x7168.size a
  inb_S1024x7168_S1024x128_0_3328 : ∀ a, (![0, 3328] : Fin 2 → Nat) a + S1024x128.size a ≤ S1024x7168.size a
  inb_S8x56_S8x1_0_26 : ∀ a, (![0, 26] : Fin 2 → Nat) a + S8x1.size a ≤ S8x56.size a
  inb_S64x7168_S64x128_0_3328 : ∀ a, (![0, 3328] : Fin 2 → Nat) a + S64x128.size a ≤ S64x7168.size a
  inb_S1024x7168_S1024x128_0_3456 : ∀ a, (![0, 3456] : Fin 2 → Nat) a + S1024x128.size a ≤ S1024x7168.size a
  inb_S8x56_S8x1_0_27 : ∀ a, (![0, 27] : Fin 2 → Nat) a + S8x1.size a ≤ S8x56.size a
  inb_S64x7168_S64x128_0_3456 : ∀ a, (![0, 3456] : Fin 2 → Nat) a + S64x128.size a ≤ S64x7168.size a
  inb_S1024x7168_S1024x128_0_3584 : ∀ a, (![0, 3584] : Fin 2 → Nat) a + S1024x128.size a ≤ S1024x7168.size a
  inb_S8x56_S8x1_0_28 : ∀ a, (![0, 28] : Fin 2 → Nat) a + S8x1.size a ≤ S8x56.size a
  inb_S64x7168_S64x128_0_3584 : ∀ a, (![0, 3584] : Fin 2 → Nat) a + S64x128.size a ≤ S64x7168.size a
  inb_S1024x7168_S1024x128_0_3712 : ∀ a, (![0, 3712] : Fin 2 → Nat) a + S1024x128.size a ≤ S1024x7168.size a
  inb_S8x56_S8x1_0_29 : ∀ a, (![0, 29] : Fin 2 → Nat) a + S8x1.size a ≤ S8x56.size a
  inb_S64x7168_S64x128_0_3712 : ∀ a, (![0, 3712] : Fin 2 → Nat) a + S64x128.size a ≤ S64x7168.size a
  inb_S1024x7168_S1024x128_0_3840 : ∀ a, (![0, 3840] : Fin 2 → Nat) a + S1024x128.size a ≤ S1024x7168.size a
  inb_S8x56_S8x1_0_30 : ∀ a, (![0, 30] : Fin 2 → Nat) a + S8x1.size a ≤ S8x56.size a
  inb_S64x7168_S64x128_0_3840 : ∀ a, (![0, 3840] : Fin 2 → Nat) a + S64x128.size a ≤ S64x7168.size a
  inb_S1024x7168_S1024x128_0_3968 : ∀ a, (![0, 3968] : Fin 2 → Nat) a + S1024x128.size a ≤ S1024x7168.size a
  inb_S8x56_S8x1_0_31 : ∀ a, (![0, 31] : Fin 2 → Nat) a + S8x1.size a ≤ S8x56.size a
  inb_S64x7168_S64x128_0_3968 : ∀ a, (![0, 3968] : Fin 2 → Nat) a + S64x128.size a ≤ S64x7168.size a
  inb_S1024x7168_S1024x128_0_4096 : ∀ a, (![0, 4096] : Fin 2 → Nat) a + S1024x128.size a ≤ S1024x7168.size a
  inb_S8x56_S8x1_0_32 : ∀ a, (![0, 32] : Fin 2 → Nat) a + S8x1.size a ≤ S8x56.size a
  inb_S64x7168_S64x128_0_4096 : ∀ a, (![0, 4096] : Fin 2 → Nat) a + S64x128.size a ≤ S64x7168.size a
  inb_S1024x7168_S1024x128_0_4224 : ∀ a, (![0, 4224] : Fin 2 → Nat) a + S1024x128.size a ≤ S1024x7168.size a
  inb_S8x56_S8x1_0_33 : ∀ a, (![0, 33] : Fin 2 → Nat) a + S8x1.size a ≤ S8x56.size a
  inb_S64x7168_S64x128_0_4224 : ∀ a, (![0, 4224] : Fin 2 → Nat) a + S64x128.size a ≤ S64x7168.size a
  inb_S1024x7168_S1024x128_0_4352 : ∀ a, (![0, 4352] : Fin 2 → Nat) a + S1024x128.size a ≤ S1024x7168.size a
  inb_S8x56_S8x1_0_34 : ∀ a, (![0, 34] : Fin 2 → Nat) a + S8x1.size a ≤ S8x56.size a
  inb_S64x7168_S64x128_0_4352 : ∀ a, (![0, 4352] : Fin 2 → Nat) a + S64x128.size a ≤ S64x7168.size a
  inb_S1024x7168_S1024x128_0_4480 : ∀ a, (![0, 4480] : Fin 2 → Nat) a + S1024x128.size a ≤ S1024x7168.size a
  inb_S8x56_S8x1_0_35 : ∀ a, (![0, 35] : Fin 2 → Nat) a + S8x1.size a ≤ S8x56.size a
  inb_S64x7168_S64x128_0_4480 : ∀ a, (![0, 4480] : Fin 2 → Nat) a + S64x128.size a ≤ S64x7168.size a
  inb_S1024x7168_S1024x128_0_4608 : ∀ a, (![0, 4608] : Fin 2 → Nat) a + S1024x128.size a ≤ S1024x7168.size a
  inb_S8x56_S8x1_0_36 : ∀ a, (![0, 36] : Fin 2 → Nat) a + S8x1.size a ≤ S8x56.size a
  inb_S64x7168_S64x128_0_4608 : ∀ a, (![0, 4608] : Fin 2 → Nat) a + S64x128.size a ≤ S64x7168.size a
  inb_S1024x7168_S1024x128_0_4736 : ∀ a, (![0, 4736] : Fin 2 → Nat) a + S1024x128.size a ≤ S1024x7168.size a
  inb_S8x56_S8x1_0_37 : ∀ a, (![0, 37] : Fin 2 → Nat) a + S8x1.size a ≤ S8x56.size a
  inb_S64x7168_S64x128_0_4736 : ∀ a, (![0, 4736] : Fin 2 → Nat) a + S64x128.size a ≤ S64x7168.size a
  inb_S1024x7168_S1024x128_0_4864 : ∀ a, (![0, 4864] : Fin 2 → Nat) a + S1024x128.size a ≤ S1024x7168.size a
  inb_S8x56_S8x1_0_38 : ∀ a, (![0, 38] : Fin 2 → Nat) a + S8x1.size a ≤ S8x56.size a
  inb_S64x7168_S64x128_0_4864 : ∀ a, (![0, 4864] : Fin 2 → Nat) a + S64x128.size a ≤ S64x7168.size a
  inb_S1024x7168_S1024x128_0_4992 : ∀ a, (![0, 4992] : Fin 2 → Nat) a + S1024x128.size a ≤ S1024x7168.size a
  inb_S8x56_S8x1_0_39 : ∀ a, (![0, 39] : Fin 2 → Nat) a + S8x1.size a ≤ S8x56.size a
  inb_S64x7168_S64x128_0_4992 : ∀ a, (![0, 4992] : Fin 2 → Nat) a + S64x128.size a ≤ S64x7168.size a
  inb_S1024x7168_S1024x128_0_5120 : ∀ a, (![0, 5120] : Fin 2 → Nat) a + S1024x128.size a ≤ S1024x7168.size a
  inb_S8x56_S8x1_0_40 : ∀ a, (![0, 40] : Fin 2 → Nat) a + S8x1.size a ≤ S8x56.size a
  inb_S64x7168_S64x128_0_5120 : ∀ a, (![0, 5120] : Fin 2 → Nat) a + S64x128.size a ≤ S64x7168.size a
  inb_S1024x7168_S1024x128_0_5248 : ∀ a, (![0, 5248] : Fin 2 → Nat) a + S1024x128.size a ≤ S1024x7168.size a
  inb_S8x56_S8x1_0_41 : ∀ a, (![0, 41] : Fin 2 → Nat) a + S8x1.size a ≤ S8x56.size a
  inb_S64x7168_S64x128_0_5248 : ∀ a, (![0, 5248] : Fin 2 → Nat) a + S64x128.size a ≤ S64x7168.size a
  inb_S1024x7168_S1024x128_0_5376 : ∀ a, (![0, 5376] : Fin 2 → Nat) a + S1024x128.size a ≤ S1024x7168.size a
  inb_S8x56_S8x1_0_42 : ∀ a, (![0, 42] : Fin 2 → Nat) a + S8x1.size a ≤ S8x56.size a
  inb_S64x7168_S64x128_0_5376 : ∀ a, (![0, 5376] : Fin 2 → Nat) a + S64x128.size a ≤ S64x7168.size a
  inb_S1024x7168_S1024x128_0_5504 : ∀ a, (![0, 5504] : Fin 2 → Nat) a + S1024x128.size a ≤ S1024x7168.size a
  inb_S8x56_S8x1_0_43 : ∀ a, (![0, 43] : Fin 2 → Nat) a + S8x1.size a ≤ S8x56.size a
  inb_S64x7168_S64x128_0_5504 : ∀ a, (![0, 5504] : Fin 2 → Nat) a + S64x128.size a ≤ S64x7168.size a
  inb_S1024x7168_S1024x128_0_5632 : ∀ a, (![0, 5632] : Fin 2 → Nat) a + S1024x128.size a ≤ S1024x7168.size a
  inb_S8x56_S8x1_0_44 : ∀ a, (![0, 44] : Fin 2 → Nat) a + S8x1.size a ≤ S8x56.size a
  inb_S64x7168_S64x128_0_5632 : ∀ a, (![0, 5632] : Fin 2 → Nat) a + S64x128.size a ≤ S64x7168.size a
  inb_S1024x7168_S1024x128_0_5760 : ∀ a, (![0, 5760] : Fin 2 → Nat) a + S1024x128.size a ≤ S1024x7168.size a
  inb_S8x56_S8x1_0_45 : ∀ a, (![0, 45] : Fin 2 → Nat) a + S8x1.size a ≤ S8x56.size a
  inb_S64x7168_S64x128_0_5760 : ∀ a, (![0, 5760] : Fin 2 → Nat) a + S64x128.size a ≤ S64x7168.size a
  inb_S1024x7168_S1024x128_0_5888 : ∀ a, (![0, 5888] : Fin 2 → Nat) a + S1024x128.size a ≤ S1024x7168.size a
  inb_S8x56_S8x1_0_46 : ∀ a, (![0, 46] : Fin 2 → Nat) a + S8x1.size a ≤ S8x56.size a
  inb_S64x7168_S64x128_0_5888 : ∀ a, (![0, 5888] : Fin 2 → Nat) a + S64x128.size a ≤ S64x7168.size a
  inb_S1024x7168_S1024x128_0_6016 : ∀ a, (![0, 6016] : Fin 2 → Nat) a + S1024x128.size a ≤ S1024x7168.size a
  inb_S8x56_S8x1_0_47 : ∀ a, (![0, 47] : Fin 2 → Nat) a + S8x1.size a ≤ S8x56.size a
  inb_S64x7168_S64x128_0_6016 : ∀ a, (![0, 6016] : Fin 2 → Nat) a + S64x128.size a ≤ S64x7168.size a
  inb_S1024x7168_S1024x128_0_6144 : ∀ a, (![0, 6144] : Fin 2 → Nat) a + S1024x128.size a ≤ S1024x7168.size a
  inb_S8x56_S8x1_0_48 : ∀ a, (![0, 48] : Fin 2 → Nat) a + S8x1.size a ≤ S8x56.size a
  inb_S64x7168_S64x128_0_6144 : ∀ a, (![0, 6144] : Fin 2 → Nat) a + S64x128.size a ≤ S64x7168.size a
  inb_S1024x7168_S1024x128_0_6272 : ∀ a, (![0, 6272] : Fin 2 → Nat) a + S1024x128.size a ≤ S1024x7168.size a
  inb_S8x56_S8x1_0_49 : ∀ a, (![0, 49] : Fin 2 → Nat) a + S8x1.size a ≤ S8x56.size a
  inb_S64x7168_S64x128_0_6272 : ∀ a, (![0, 6272] : Fin 2 → Nat) a + S64x128.size a ≤ S64x7168.size a
  inb_S1024x7168_S1024x128_0_6400 : ∀ a, (![0, 6400] : Fin 2 → Nat) a + S1024x128.size a ≤ S1024x7168.size a
  inb_S8x56_S8x1_0_50 : ∀ a, (![0, 50] : Fin 2 → Nat) a + S8x1.size a ≤ S8x56.size a
  inb_S64x7168_S64x128_0_6400 : ∀ a, (![0, 6400] : Fin 2 → Nat) a + S64x128.size a ≤ S64x7168.size a
  inb_S1024x7168_S1024x128_0_6528 : ∀ a, (![0, 6528] : Fin 2 → Nat) a + S1024x128.size a ≤ S1024x7168.size a
  inb_S8x56_S8x1_0_51 : ∀ a, (![0, 51] : Fin 2 → Nat) a + S8x1.size a ≤ S8x56.size a
  inb_S64x7168_S64x128_0_6528 : ∀ a, (![0, 6528] : Fin 2 → Nat) a + S64x128.size a ≤ S64x7168.size a
  inb_S1024x7168_S1024x128_0_6656 : ∀ a, (![0, 6656] : Fin 2 → Nat) a + S1024x128.size a ≤ S1024x7168.size a
  inb_S8x56_S8x1_0_52 : ∀ a, (![0, 52] : Fin 2 → Nat) a + S8x1.size a ≤ S8x56.size a
  inb_S64x7168_S64x128_0_6656 : ∀ a, (![0, 6656] : Fin 2 → Nat) a + S64x128.size a ≤ S64x7168.size a
  inb_S1024x7168_S1024x128_0_6784 : ∀ a, (![0, 6784] : Fin 2 → Nat) a + S1024x128.size a ≤ S1024x7168.size a
  inb_S8x56_S8x1_0_53 : ∀ a, (![0, 53] : Fin 2 → Nat) a + S8x1.size a ≤ S8x56.size a
  inb_S64x7168_S64x128_0_6784 : ∀ a, (![0, 6784] : Fin 2 → Nat) a + S64x128.size a ≤ S64x7168.size a
  inb_S1024x7168_S1024x128_0_6912 : ∀ a, (![0, 6912] : Fin 2 → Nat) a + S1024x128.size a ≤ S1024x7168.size a
  inb_S8x56_S8x1_0_54 : ∀ a, (![0, 54] : Fin 2 → Nat) a + S8x1.size a ≤ S8x56.size a
  inb_S64x7168_S64x128_0_6912 : ∀ a, (![0, 6912] : Fin 2 → Nat) a + S64x128.size a ≤ S64x7168.size a
  inb_S1024x7168_S1024x128_0_7040 : ∀ a, (![0, 7040] : Fin 2 → Nat) a + S1024x128.size a ≤ S1024x7168.size a
  inb_S8x56_S8x1_0_55 : ∀ a, (![0, 55] : Fin 2 → Nat) a + S8x1.size a ≤ S8x56.size a
  inb_S64x7168_S64x128_0_7040 : ∀ a, (![0, 7040] : Fin 2 → Nat) a + S64x128.size a ≤ S64x7168.size a
  inb_S64x1024_S64x1024_0_0 : ∀ a, (![0, 0] : Fin 2 → Nat) a + S64x1024.size a ≤ S64x1024.size a
  h_S64x1024 : 0 < S64x1024.numel
  dot_S64x128_S1024x128_S64x1024_1_1_0_0_n_n_wf : DotDims.WF S64x128 S1024x128 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x7168.size a ≤ S64x7168.size a
  hwx0_0 : ∀ i : grid0.Coords, EltTy.bits .f32 = 32 ∨ (Rect.block (s := S64x7168) S64x7168.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x7168.size a ≤ S18432x7168.size a
  hwx0_1 : ∀ i : grid0.Coords, EltTy.bits .f32 = 32 ∨ (Rect.block (s := S18432x7168) S1024x7168.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x56.size a ≤ S144x56.size a
  hwx0_2 : ∀ i : grid0.Coords, EltTy.bits .f32 = 32 ∨ (Rect.block (s := S144x56) S8x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x18432.size a
  hwx0_3 : ∀ i : grid0.Coords, EltTy.bits .f32 = 32 ∨ (Rect.block (s := S64x18432) S64x1024.size (cc0_transform_3 i) (hinb0_3 i)).WholeWords (EltTy.packing .f32)

variable [Facts₀]

def dot_S64x128_S1024x128_S64x1024_1_1_0_0_n_n : DotDims S64x128 S1024x128 S64x1024 where
  lhsContracting := [1]
  rhsContracting := [1]
  lhsNonContracting := [0]
  rhsNonContracting := [0]
  lhsBatch := []
  rhsBatch := []
  wf := dot_S64x128_S1024x128_S64x1024_1_1_0_0_n_n_wf

abbrev win0_0 : Pipeline.Window sig grid0 :=
  Pipeline.Window.ofSpec (Memref.whole main_arg0) S64x7168.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x7168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x7168 : Shape := ⟨2, ![64, 7168]⟩
abbrev S18432x7168 : Shape := ⟨2, ![18432, 7168]⟩
abbrev S144x56 : Shape := ⟨2, ![144, 56]⟩
abbrev S144x128x56 : Shape := ⟨3, ![144, 128, 56]⟩
abbrev S18432x56 : Shape := ⟨2, ![18432, 56]⟩
abbrev S18432x56x128 : Shape := ⟨3, ![18432, 56, 128]⟩
abbrev S64x18432 : Shape := ⟨2, ![64, 18432]⟩

abbrev nBuf : Space → Nat
  | .hbm => 9
  | .vmem => 0
  | .smem => 0
  | _ => 0

abbrev bufTy : (tb : Table) → Fin (tcTables nBuf tb) → BufTy
  | .hbm, ⟨0, _⟩ => ⟨S64x7168, .f32⟩
  | .hbm, ⟨1, _⟩ => ⟨S18432x7168, .f32⟩
  | .hbm, ⟨2, _⟩ => ⟨S144x56, .f32⟩
  | .hbm, ⟨3, _⟩ => ⟨S144x128x56, .f32⟩
  | .hbm, ⟨4, _⟩ => ⟨S18432x56, .f32⟩
  | .hbm, ⟨5, _⟩ => ⟨S18432x56x128, .f32⟩
  | .hbm, ⟨6, _⟩ => ⟨S18432x7168, .f32⟩
  | .hbm, ⟨7, _⟩ => ⟨S18432x7168, .f32⟩
  | .hbm, ⟨8, _⟩ => ⟨S64x18432, .f32⟩
  | _, _ => ⟨S64x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S144x56_S144x128x56_0_2 : S144x56.BroadcastsInDim S144x128x56 (![0, 2] : Fin 2 → Fin S144x128x56.rank)
  shapeCasts_S144x128x56_S18432x56 : S144x128x56.ShapeCasts S18432x56
  bcast_S18432x56_S18432x56x128_0_1 : S18432x56.BroadcastsInDim S18432x56x128 (![0, 1] : Fin 2 → Fin S18432x56x128.rank)
  shapeCasts_S18432x56x128_S18432x7168 : S18432x56x128.ShapeCasts S18432x7168
  dot_S64x7168_S18432x7168_S64x18432_1_1_0_0_n_n_wf : DotDims.WF S64x7168 S18432x7168 S64x18432 [1] [1] [0] [0] [] []

variable [Facts₀]

def dot_S64x7168_S18432x7168_S64x18432_1_1_0_0_n_n : DotDims S64x7168 S18432x7168 S64x18432 where
  lhsContracting := [1]
  rhsContracting := [1]
  lhsNonContracting := [0]
  rhsNonContracting := [0]
  lhsBatch := []
  rhsBatch := []
  wf := dot_S64x7168_S18432x7168_S64x18432_1_1_0_0_n_n_wf

class Facts : Prop extends Facts₀ where

variable [Facts]
-- ==== Proof.Chunk.lean ====
/-
  One K-chunk of the kernel body, read at an index over the extended reals.

  The body walks the 7168 input features in 56 chunks of 128. For a chunk it takes a 64 x 128 slab of activations,
  a 1024 x 128 slab of quantised weights, and an 8 x 1 column of block scales; it repeats each scale down 128
  consecutive weight rows, multiplies it into the weight slab, and contracts activations against the scaled weights
  over the 128 features of the chunk, into a zero accumulator. Changes of float format are the identity on the
  extended reals, so entry (t, j) of the chunk's product is
      sum over k < 128 of  x[t, k] * (w[j, k] * s[j / 128]).
-/
import proofs.«178263_j90950227460263_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Dequant

open Cert.KernelIdeal Idealize.ShloMosaic Idealize.ShloMosaic.ValueIdx
open Cert.KernelIdeal.Facts₀ Cert.KernelIdeal.Facts

variable {F : FTy → Type} [FloatOps F]

/-- The 8 x 1 column of block scales repeated down the rows (row j takes scale j / 128) and across the 128 lanes. -/
def spread (sc : Vec F S8x1 .f32) : FVec F S1024x128 .f32 :=
  broadcastTo S1024x128
    (shapeCast S1024x1
      (broadcastTo S8x128x1 (shapeCast S8x1x1 sc shapeCasts_S8x1_S8x1x1) broadcasts_S8x1x1_S8x128x1)
      shapeCasts_S8x128x1_S1024x1)
    broadcasts_S1024x1_S1024x128

/-- One chunk's contribution: activations against scaled weights over the chunk's 128 features, from zero. -/
def chunkProd (xc : Vec F S64x128 .f32) (wc : Vec F S1024x128 .f32) (sc : Vec F S8x1 .f32) : FVec F S64x1024 .f32 :=
  matmul dot_S64x128_S1024x128_S64x1024_1_1_0_0_n_n none
    (truncf .bf16 xc bitsLt_bf16_f32)
    (truncf .bf16 (mulf wc (spread sc)) bitsLt_bf16_f32)
    (constant S64x1024 .f32 0x00000000#32)

/-- Row j of the spread scales holds scale j / 128 in every lane. -/
theorem spread_apply (sc : Vec Ideal S8x1 .f32) (j : Fin 1024) (k : Fin 128) :
    spread sc (ix2 j k) = sc (ix2 ⟨j.val / 128, by have := j.isLt; omega⟩ (0 : Fin 1)) := by
  unfold spread
  refine (broadcastTo_apply _ broadcasts_S1024x1_S1024x128 (ix2 j k) (ix2 j (0 : Fin 1)) (fun a => match a with
    | ⟨0, _⟩ => by show j.val = if (1024 : Nat) = 1 then 0 else j.val; rw [if_neg (by decide)]
    | ⟨1, _⟩ => by show (0 : Nat) = if (1 : Nat) = 1 then 0 else k.val; rw [if_pos rfl])).trans ?_
  refine (shapeCast_apply _ shapeCasts_S8x128x1_S1024x1 (ix2 j (0 : Fin 1))
    (ix3 (⟨j.val / 128, by have := j.isLt; omega⟩ : Fin 8) (⟨j.val % 128, Nat.mod_lt _ (by decide)⟩ : Fin 128) (0 : Fin 1))
    (by rewrite [Shape.rowMajor_val_three, Shape.rowMajor_val_two]
        show ((j.val / 128) * 128 + j.val % 128) * 1 + 0 = j.val * 1 + 0
        omega)).trans ?_
  refine (broadcastTo_apply _ broadcasts_S8x1x1_S8x128x1 _
    (ix3 (⟨j.val / 128, by have := j.isLt; omega⟩ : Fin 8) (0 : Fin 1) (0 : Fin 1)) (fun a => match a with
    | ⟨0, _⟩ => by show j.val / 128 = if (8 : Nat) = 1 then 0 else j.val / 128; rw [if_neg (by decide)]
    | ⟨1, _⟩ => by show (0 : Nat) = if (1 : Nat) = 1 then 0 else j.val % 128; rw [if_pos rfl]
    | ⟨2, _⟩ => by show (0 : Nat) = if (1 : Nat) = 1 then 0 else 0; rw [if_pos rfl])).trans ?_
  exact shapeCast_apply _ shapeCasts_S8x1_S8x1x1 _ (ix2 (⟨j.val / 128, by have := j.isLt; omega⟩ : Fin 8) (0 : Fin 1))
    (by rewrite [Shape.rowMajor_val_three, Shape.rowMajor_val_two]
        show (j.val / 128) * 1 + 0 = ((j.val / 128) * 1 + 0) * 1 + 0
        omega)

/-- The chunk's contraction record keeps output row as the activations' row … -/
theorem lhs_row (i : S64x1024.Idx) (q : dot_S64x128_S1024x128_S64x1024_1_1_0_0_n_n.contr.Idx) :
    (dot_S64x128_S1024x128_S64x1024_1_1_0_0_n_n.lhsIdx i q 0).val = (i 0).val := by
  unfold DotDims.lhsIdx
  rw [dif_neg (show ¬(0 : Fin S64x128.rank) ∈ dot_S64x128_S1024x128_S64x1024_1_1_0_0_n_n.lhsBatch by decide), dif_pos (show (0 : Fin S64x128.rank) ∈ dot_S64x128_S1024x128_S64x1024_1_1_0_0_n_n.lhsNonContracting by decide)]
  rfl
/-- … contracts the activations' feature axis … -/
theorem lhs_feat (i : S64x1024.Idx) (q : dot_S64x128_S1024x128_S64x1024_1_1_0_0_n_n.contr.Idx) :
    (dot_S64x128_S1024x128_S64x1024_1_1_0_0_n_n.lhsIdx i q 1).val = (q ⟨0, by decide⟩).val :=
  dot_S64x128_S1024x128_S64x1024_1_1_0_0_n_n.lhsIdx_val_of_single rfl i q
/-- … takes output column as the weights' row … -/
theorem rhs_row (i : S64x1024.Idx) (q : dot_S64x128_S1024x128_S64x1024_1_1_0_0_n_n.contr.Idx) :
    (dot_S64x128_S1024x128_S64x1024_1_1_0_0_n_n.rhsIdx i q 0).val = (i 1).val := by
  unfold DotDims.rhsIdx
  rw [dif_neg (show ¬(0 : Fin S1024x128.rank) ∈ dot_S64x128_S1024x128_S64x1024_1_1_0_0_n_n.rhsBatch by decide), dif_pos (show (0 : Fin S1024x128.rank) ∈ dot_S64x128_S1024x128_S64x1024_1_1_0_0_n_n.rhsNonContracting by decide)]
  rfl
/-- … and contracts the weights' feature axis. -/
theorem rhs_feat (i : S64x1024.Idx) (q : dot_S64x128_S1024x128_S64x1024_1_1_0_0_n_n.contr.Idx) :
    (dot_S64x128_S1024x128_S64x1024_1_1_0_0_n_n.rhsIdx i q 1).val = (q ⟨0, by decide⟩).val :=
  dot_S64x128_S1024x128_S64x1024_1_1_0_0_n_n.rhsIdx_val_of_single rfl i q

/-- Entry (r, j) of a chunk's product: the sum over the chunk's 128 features of activation times scaled weight,
    the scale being the one of weight row j's block of 128 rows. -/
theorem chunkProd_apply (xc : Vec Ideal S64x128 .f32) (wc : Vec Ideal S1024x128 .f32) (sc : Vec Ideal S8x1 .f32)
    (r : Fin 64) (j : Fin 1024) :
    chunkProd xc wc sc (ix2 r j)
      = ∑ k : Fin 128, xc (ix2 r k) * (wc (ix2 j k) * sc (ix2 ⟨j.val / 128, by have := j.isLt; omega⟩ (0 : Fin 1))) := by
  unfold chunkProd
  simp only [matmul]
  rw [Ideal.matmul_constant_zero_apply, ← Equiv.sum_comp (contrEquiv1 dot_S64x128_S1024x128_S64x1024_1_1_0_0_n_n 128 rfl rfl).symm]
  refine Finset.sum_congr rfl fun k _ => ?_
  have hk := contrEquiv1_symm_val dot_S64x128_S1024x128_S64x1024_1_1_0_0_n_n 128 rfl rfl k
  have el : dot_S64x128_S1024x128_S64x1024_1_1_0_0_n_n.lhsIdx (ix2 r j) ((contrEquiv1 dot_S64x128_S1024x128_S64x1024_1_1_0_0_n_n 128 rfl rfl).symm k) = ix2 r k := funext fun a => Fin.ext (by
    match a with
    | ⟨0, _⟩ => exact lhs_row _ _
    | ⟨1, _⟩ => exact (lhs_feat _ _).trans hk)
  have er : dot_S64x128_S1024x128_S64x1024_1_1_0_0_n_n.rhsIdx (ix2 r j) ((contrEquiv1 dot_S64x128_S1024x128_S64x1024_1_1_0_0_n_n 128 rfl rfl).symm k) = ix2 j k := funext fun a => Fin.ext (by
    match a with
    | ⟨0, _⟩ => exact rhs_row _ _
    | ⟨1, _⟩ => exact (rhs_feat _ _).trans hk)
  rw [el, er, truncf_apply, truncf_apply, mulf_apply, spread_apply]

end Cert.KernelIdeal.Dequant

end
-- ==== Proof.Body.lean ====
/-
  The kernel body's one store, as 56 chunk products added up from zero.

  The body's result is the running sum, started at the zero splat, of the 56 chunk products; chunk kb reads columns
  128 kb .. 128 kb + 127 of the activation block and of the weight block, and column kb of the 8 x 56 block of scales.
  Read at entry (r, j) over the extended reals (addition there is commutative and associative, so the running sum
  is a sum over chunks, and the sum over chunks and lanes a sum over all 7168 features):
      sum over i < 7168 of  x[r, i] * (w[j, i] * s[j / 128, i / 128]).
-/
import proofs.«178263_j90950227460263_1_alg».proof.Proof.Chunk
import proofs.«178263_j90950227460263_1_alg».proof.Proof.Gen.KernelIdeal.Frame

noncomputable section

namespace Cert.KernelIdeal.Dequant

open Cert.KernelIdeal Cert.KernelIdeal.Gen Idealize.ShloMosaic Idealize.ShloMosaic.ValueIdx
open Cert.KernelIdeal.Facts₀ Cert.KernelIdeal.Facts

variable {F : FTy → Type} [FloatOps F]

/-- Columns 128 kb .. 128 kb + 127 of the 64 x 7168 activation block. -/
abbrev xRect (kb : Fin 56) : Rect S64x7168 :=
  Rect.unit (s := S64x7168) ![0, 128 * kb.val] S64x128.size (fun a => by
    have := kb.isLt
    match a with
    | ⟨0, _⟩ => show 0 + 64 ≤ 64; omega
    | ⟨1, _⟩ => show 128 * kb.val + 128 ≤ 7168; omega)

/-- Columns 128 kb .. 128 kb + 127 of the 1024 x 7168 weight block. -/
abbrev wRect (kb : Fin 56) : Rect S1024x7168 :=
  Rect.unit (s := S1024x7168) ![0, 128 * kb.val] S1024x128.size (fun a => by
    have := kb.isLt
    match a with
    | ⟨0, _⟩ => show 0 + 1024 ≤ 1024; omega
    | ⟨1, _⟩ => show 128 * kb.val + 128 ≤ 7168; omega)

/-- Column kb of the 8 x 56 block of scales. -/
abbrev sRect (kb : Fin 56) : Rect S8x56 :=
  Rect.unit (s := S8x56) ![0, kb.val] S8x1.size (fun a => by
    have := kb.isLt
    match a with
    | ⟨0, _⟩ => show 0 + 8 ≤ 8; omega
    | ⟨1, _⟩ => show kb.val + 1 ≤ 56; omega)

/-- Chunk kb's product, from the three blocks. -/
def term (x0 : Vec F S64x7168 .f32) (x1 : Vec F S1024x7168 .f32) (x2 : Vec F S8x56 .f32) (kb : Fin 56) :
    FVec F S64x1024 .f32 :=
  chunkProd (View.ld x0 (xRect kb)) (View.ld x1 (wRect kb)) (View.ld x2 (sRect kb))

/-- The running sum after the first n chunks, from the zero splat. -/
def partialSum (x0 : Vec F S64x7168 .f32) (x1 : Vec F S1024x7168 .f32) (x2 : Vec F S8x56 .f32) :
    (n : Nat) → n ≤ 56 → FVec F S64x1024 .f32
  | 0, _ => broadcast S64x1024 (Scalar.ofBits .f32 0x00000000#32)
  | n + 1, h => addf (partialSum x0 x1 x2 n (Nat.le_of_succ_le h)) (term x0 x1 x2 ⟨n, h⟩)

set_option maxRecDepth 100000 in
/-- The body's one store writes the running sum after all 56 chunks. -/
theorem out_eq (x0 : Vec F S64x7168 .f32) (x1 : Vec F S1024x7168 .f32) (x2 : Vec F S8x56 .f32) :
    out0_3 x0 x1 x2 = View.canon [⟨r0_168, partialSum x0 x1 x2 56 (Nat.le_refl 56)⟩] := rfl

/-- The term at feature i of entry (r, j): activation times (weight times the scale of its 128 x 128 block). -/
def feat (x0 : Vec Ideal S64x7168 .f32) (x1 : Vec Ideal S1024x7168 .f32) (x2 : Vec Ideal S8x56 .f32)
    (r : Fin 64) (j : Fin 1024) (i : Fin 7168) : EReal :=
  x0 (ix2 r i) * (x1 (ix2 j i)
    * x2 (ix2 (⟨j.val / 128, by have := j.isLt; omega⟩ : Fin 8) (⟨i.val / 128, by have := i.isLt; omega⟩ : Fin 56)))

/-- A sum over 56 chunks of 128 lanes is the sum over the 7168 features. -/
theorem sum_chunks {M : Type} [AddCommMonoid M] (f : Fin 7168 → M) :
    ∑ kb : Fin 56, ∑ k : Fin 128, f ⟨128 * kb.val + k.val, by have := kb.isLt; have := k.isLt; omega⟩
      = ∑ i : Fin 7168, f i := by
  rw [← Fintype.sum_prod_type']
  exact Fintype.sum_equiv (finProdFinEquiv : Fin 56 × Fin 128 ≃ Fin 7168) _ _ (fun p => by
    congr 1; apply Fin.ext; rw [finProdFinEquiv_apply_val]
    show 128 * p.1.val + p.2.val = p.2.val + 128 * p.1.val; omega)

/-- Lane k of row r of chunk kb of the activation block is column 128 kb + k of that row. -/
theorem ld_x (x0 : Vec Ideal S64x7168 .f32) (kb : Fin 56) (r : Fin 64) (k : Fin 128) :
    View.ld x0 (xRect kb) (ix2 r k)
      = x0 (ix2 r (⟨128 * kb.val + k.val, by have := kb.isLt; have := k.isLt; omega⟩ : Fin 7168)) := by
  show x0 _ = x0 _
  congr 1; funext a; apply Fin.ext
  match a with
  | ⟨0, _⟩ => show 0 + 1 * r.val = r.val; omega
  | ⟨1, _⟩ => show 128 * kb.val + 1 * k.val = 128 * kb.val + k.val; omega

/-- Likewise for the weight block. -/
theorem ld_w (x1 : Vec Ideal S1024x7168 .f32) (kb : Fin 56) (j : Fin 1024) (k : Fin 128) :
    View.ld x1 (wRect kb) (ix2 j k)
      = x1 (ix2 j (⟨128 * kb.val + k.val, by have := kb.isLt; have := k.isLt; omega⟩ : Fin 7168)) := by
  show x1 _ = x1 _
  congr 1; funext a; apply Fin.ext
  match a with
  | ⟨0, _⟩ => show 0 + 1 * j.val = j.val; omega
  | ⟨1, _⟩ => show 128 * kb.val + 1 * k.val = 128 * kb.val + k.val; omega

/-- Row q of chunk kb's scale column is entry (q, kb) of the block of scales. -/
theorem ld_s (x2 : Vec Ideal S8x56 .f32) (kb : Fin 56) (q : Fin 8) :
    View.ld x2 (sRect kb) (ix2 q (0 : Fin 1)) = x2 (ix2 q kb) := by
  show x2 _ = x2 _
  congr 1; funext a; apply Fin.ext
  match a with
  | ⟨0, _⟩ => show 0 + 1 * q.val = q.val; omega
  | ⟨1, _⟩ => show kb.val + 1 * 0 = kb.val; omega

/-- Entry (r, j) of chunk kb's product: the terms of features 128 kb .. 128 kb + 127. -/
theorem term_apply (x0 : Vec Ideal S64x7168 .f32) (x1 : Vec Ideal S1024x7168 .f32) (x2 : Vec Ideal S8x56 .f32)
    (kb : Fin 56) (r : Fin 64) (j : Fin 1024) :
    term x0 x1 x2 kb (ix2 r j)
      = ∑ k : Fin 128, feat x0 x1 x2 r j ⟨128 * kb.val + k.val, by have := kb.isLt; have := k.isLt; omega⟩ := by
  unfold term
  rw [chunkProd_apply]
  refine Finset.sum_congr rfl fun k _ => ?_
  rw [ld_x, ld_w, ld_s]
  unfold feat
  have e : (⟨(128 * kb.val + k.val) / 128, by have := kb.isLt; have := k.isLt; omega⟩ : Fin 56) = kb :=
    Fin.ext (by show (128 * kb.val + k.val) / 128 = kb.val; have := k.isLt; omega)
  rw [e]

/-- Entry (r, j) of the running sum after n chunks: the terms of the first 128 n features. -/
theorem partialSum_apply (x0 : Vec Ideal S64x7168 .f32) (x1 : Vec Ideal S1024x7168 .f32) (x2 : Vec Ideal S8x56 .f32)
    (r : Fin 64) (j : Fin 1024) : ∀ (n : Nat) (h : n ≤ 56),
    partialSum x0 x1 x2 n h (ix2 r j)
      = ∑ kb : Fin n, ∑ k : Fin 128,
          feat x0 x1 x2 r j ⟨128 * kb.val + k.val, by have := kb.isLt; have := k.isLt; omega⟩
  | 0, _ => by
    show (Ideal.ofBits .f32 0x00000000#32 : EReal) = _
    rw [Ideal.ofBits_zero_f32, Finset.univ_eq_empty, Finset.sum_empty]
  | n + 1, h => by
    show partialSum x0 x1 x2 n (Nat.le_of_succ_le h) (ix2 r j) + term x0 x1 x2 ⟨n, h⟩ (ix2 r j) = _
    rw [partialSum_apply x0 x1 x2 r j n (Nat.le_of_succ_le h), term_apply]
    conv_rhs => rw [Fin.sum_univ_castSucc]
    rfl

theorem zero_off : (![0, 0] : Fin 2 → Nat) = fun _ => 0 := funext fun a => by fin_cases a <;> rfl

/-- Entry (r, j) of what the body leaves in the output block: the sum over all 7168 features. -/
theorem out_apply (x0 : Vec Ideal S64x7168 .f32) (x1 : Vec Ideal S1024x7168 .f32) (x2 : Vec Ideal S8x56 .f32)
    (r : Fin 64) (j : Fin 1024) :
    out0_3 x0 x1 x2 (ix2 r j) = ∑ i : Fin 7168, feat x0 x1 x2 r j i := by
  rw [out_eq, View.canon_unit_zero zero_off, partialSum_apply, sum_chunks]

end Cert.KernelIdeal.Dequant

end
-- ==== Proof.Spec.lean ====
/-
  The layer both programs compute: a linear layer whose weight is stored block-quantised.

  Activations x are 64 x 7168, weight codes w are 18432 x 7168, and there is one scale per 128 x 128 block of the
  weight, s of shape 144 x 56. The dequantised weight is w[o, i] * s[o / 128, i / 128], and the output is
      y[r, o] = sum over i < 7168 of  x[r, i] * (w[o, i] * s[o / 128, i / 128]),
  stated here over the extended reals, index by index.
-/
import Idealize.ShloMosaic.PureOps.Ideal
import Idealize.ShloMosaic.Lib.ValueIdx

noncomputable section

open scoped BigOperators

namespace Cert.Dequant

open Idealize.ShloMosaic Idealize.ShloMosaic.ValueIdx

/-- The block-dequantised linear layer, entry by entry. -/
def layer (x : (⟨2, ![64, 7168]⟩ : Shape).Idx → EReal) (w : (⟨2, ![18432, 7168]⟩ : Shape).Idx → EReal)
    (s : (⟨2, ![144, 56]⟩ : Shape).Idx → EReal) : (⟨2, ![64, 18432]⟩ : Shape).Idx → EReal :=
  fun i => ∑ k : Fin 7168,
    x (ix2 (⟨(i 0).val, (i 0).isLt⟩ : Fin 64) k)
      * (w (ix2 (⟨(i 1).val, (i 1).isLt⟩ : Fin 18432) k)
        * s (ix2 (⟨(i 1).val / 128, by have h : (i 1).val < 18432 := (i 1).isLt; omega⟩ : Fin 144)
                 (⟨k.val / 128, by have := k.isLt; omega⟩ : Fin 56)))

end Cert.Dequant

end
-- ==== Proof.KernelValue.lean ====
/-
  The kernel's output array is the block-dequantised linear layer.

  Grid point p (of 18) sees the whole 64 x 7168 activation array, rows 1024 p .. 1024 p + 1023 of the weight codes
  and rows 8 p .. 8 p + 7 of the scales, and writes columns 1024 p .. 1024 p + 1023 of the output. Weight row
  1024 p + j lies in block row (1024 p + j) / 128 = 8 p + j / 128 of the scales, which is row j / 128 of the point's
  block of scales: so entry (r, j) of the point's block is entry (r, 1024 p + j) of the layer. The 18 column blocks
  tile the output.
-/
import proofs.«178263_j90950227460263_1_alg».proof.Proof.Body
import proofs.«178263_j90950227460263_1_alg».proof.Proof.Spec
import proofs.«178263_j90950227460263_1_alg».proof.Proof.Gen.KernelIdeal.Value

noncomputable section

namespace Cert.KernelIdeal.Dequant

open Cert.KernelIdeal Cert.KernelIdeal.Gen Idealize.ShloMosaic Idealize.ShloMosaic.TcCoe Idealize.ShloMosaic.ValueIdx
open Idealize.SL.Sem
open Idealize.ShloMosaic.Pipeline (Dat)

/-- The body's block is a block of the layer, when its three input blocks are the corresponding blocks of the arrays:
    all of the activations, weight rows from 1024 p, scale rows from 8 p. -/
theorem block_eq (X : Vec Ideal S64x7168 .f32) (W : Vec Ideal S18432x7168 .f32) (S : Vec Ideal S144x56 .f32)
    (p : Nat) (hp : p < 18)
    (x0 : Vec Ideal S64x7168 .f32) (x1 : Vec Ideal S1024x7168 .f32) (x2 : Vec Ideal S8x56 .f32)
    (h0 : ∀ (r : Fin 64) (i : Fin 7168), x0 (ix2 r i) = X (ix2 r i))
    (h1 : ∀ (j : Fin 1024) (i : Fin 7168),
      x1 (ix2 j i) = W (ix2 (⟨1024 * p + j.val, by have := j.isLt; omega⟩ : Fin 18432) i))
    (h2 : ∀ (q : Fin 8) (b : Fin 56), x2 (ix2 q b) = S (ix2 (⟨8 * p + q.val, by have := q.isLt; omega⟩ : Fin 144) b))
    (y : S64x1024.Idx) :
    out0_3 x0 x1 x2 y
      = Cert.Dequant.layer X W S (ix2 (⟨(y 0).val, (y 0).isLt⟩ : Fin 64)
          (⟨1024 * p + (y 1).val, by have h : (y 1).val < 1024 := (y 1).isLt; omega⟩ : Fin 18432)) := by
  obtain ⟨r, j, rfl⟩ : ∃ (r : Fin 64) (j : Fin 1024), y = ix2 r j := ⟨y 0, y 1, eq_ix2 y⟩
  have hj : j.val < 1024 := j.isLt
  rw [out_apply]
  unfold Cert.Dequant.layer
  refine Finset.sum_congr rfl fun i _ => ?_
  unfold feat
  rw [h0, h1, h2]
  have e : (⟨8 * p + j.val / 128, by omega⟩ : Fin 144)
      = ⟨(1024 * p + j.val) / 128, by omega⟩ := Fin.ext (by show 8 * p + j.val / 128 = (1024 * p + j.val) / 128; omega)
  rw [e]

variable (m : (ℓ : Loc nD τ sig) → Buf (Elt Ideal) ℓ) (ρ : Dev nD → PrngReg)

/-- The printed index maps over the 18 grid points: the activations' window never moves, the weights' and the scales'
    move down one block a point, the output's one block to the right. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- What point t writes back is block t of the layer of the argument arrays. -/
theorem flushed_eq (c : Dev nD) (t : Fin cfg0.N) :
    (dats m 0 c).flushed 3 t
      = ((cfg0.win 3).blk t).view.read (Elt Ideal)
          (Cert.Dequant.layer (V m c main_arg0) (V m c main_arg1) (V m c main_arg2)) := by
  rw [Cert.KernelIdeal.Value.flushed3]
  obtain ⟨a00, a01, a10, a11, a20, a21, a30, a31⟩ := idx_facts t
  have ht : t.val < 18 := t.isLt
  funext y
  show out0_3 (iblk m c 0 t) (iblk m c 1 t) (iblk m c 2 t) y
    = Cert.Dequant.layer (V m c main_arg0) (V m c main_arg1) (V m c main_arg2) (((cfg0.win 3).blk t).view.emb y)
  refine (block_eq (V m c main_arg0) (V m c main_arg1) (V m c main_arg2) t.val ht
    (iblk m c 0 t) (iblk m c 1 t) (iblk m c 2 t) ?_ ?_ ?_ y).trans ?_
  · intro r i
    show V m c main_arg0 (((cfg0.win 0).blk t).view.emb (ix2 r i)) = V m c main_arg0 (ix2 r i)
    congr 1; funext a; apply Fin.ext
    match a with
    | ⟨0, _⟩ => show win0_0.index t (0 : Fin 2) * 64 + 1 * r.val = r.val; omega
    | ⟨1, _⟩ => show win0_0.index t (1 : Fin 2) * 7168 + 1 * i.val = i.val; omega
  · intro j i
    show V m c main_arg1 (((cfg0.win 1).blk t).view.emb (ix2 j i)) = V m c main_arg1 (ix2 _ i)
    congr 1; funext a; apply Fin.ext
    match a with
    | ⟨0, _⟩ => show win0_1.index t (0 : Fin 2) * 1024 + 1 * j.val = 1024 * t.val + j.val; omega
    | ⟨1, _⟩ => show win0_1.index t (1 : Fin 2) * 7168 + 1 * i.val = i.val; omega
  · intro q b
    show V m c main_arg2 (((cfg0.win 2).blk t).view.emb (ix2 q b)) = V m c main_arg2 (ix2 _ b)
    congr 1; funext a; apply Fin.ext
    match a with
    | ⟨0, _⟩ => show win0_2.index t (0 : Fin 2) * 8 + 1 * q.val = 8 * t.val + q.val; omega
    | ⟨1, _⟩ => show win0_2.index t (1 : Fin 2) * 56 + 1 * b.val = b.val; omega
  · congr 1; funext a; apply Fin.ext
    match a with
    | ⟨0, _⟩ => show (y 0).val = win0_3.index t (0 : Fin 2) * 64 + 1 * (y 0).val; omega
    | ⟨1, _⟩ => show 1024 * t.val + (y 1).val = win0_3.index t (1 : Fin 2) * 1024 + 1 * (y 1).val; omega

/-- An index of the output is in point t's block iff each coordinate is in the block's range on its axis. -/
theorem mem_blk (t : Fin cfg0.N) (i : S64x18432.Idx) :
    i ∈ ((cfg0.win 3).blk t).view.set
      ↔ ∀ a : Fin 2, win0_3.index t a * S64x1024.size a ≤ (i a).val
          ∧ (i a).val < win0_3.index t a * S64x1024.size a + S64x1024.size a := by
  show i ∈ ((View.whole main_v0).slice (win0_3.rect t)).set ↔ _
  rw [View.set_slice_whole, Rect.mem_set_unit]
  exact Iff.rfl

/-- Every output index lies in the block of the point numbered by its column block. -/
theorem cover (i : S64x18432.Idx) :
    ∃ t : Fin cfg0.N, (cfg0.win 3).flush t = true ∧ i ∈ ((cfg0.win 3).blk t).view.set := by
  have h0 : (i 0).val < 64 := (i 0).isLt
  have h1 : (i 1).val < 18432 := (i 1).isLt
  refine ⟨⟨(i 1).val / 1024, by show (i 1).val / 1024 < 18; omega⟩, flush0_3 _, ?_⟩
  obtain ⟨-, -, -, -, -, -, a30, a31⟩ := idx_facts ⟨(i 1).val / 1024, by show (i 1).val / 1024 < 18; omega⟩
  rw [mem_blk]
  intro a
  match a with
  | ⟨0, _⟩ =>
    show win0_3.index _ (0 : Fin 2) * 64 ≤ (i 0).val ∧ (i 0).val < win0_3.index _ (0 : Fin 2) * 64 + 64
    rw [a30]; omega
  | ⟨1, _⟩ =>
    show win0_3.index _ (1 : Fin 2) * 1024 ≤ (i 1).val ∧ (i 1).val < win0_3.index _ (1 : Fin 2) * 1024 + 1024
    rw [a31]; show (i 1).val / 1024 * 1024 ≤ (i 1).val ∧ (i 1).val < (i 1).val / 1024 * 1024 + 1024; omega

/-- The output array after the run is the layer of the argument arrays. -/
theorem final (c : Dev nD) :
    (dats m 0 c).arrAt 3 cfg0.N
      = Cert.Dequant.layer (m ((c : Thread nD τ).loc main_arg0)) (m ((c : Thread nD τ).loc main_arg1))
          (m ((c : Thread nD τ).loc main_arg2)) :=
  (dats m 0 c).arrAt_eq_of_cover 3 _ (fun t _ => flushed_eq m c t) cover

/-- Every weakly fair execution of the idealised kernel ends with the output at the layer of the arguments, and the
    arguments unchanged. -/
theorem run : θ_run defs (onTc (τ := τ) (main (F := Ideal))) ⟨m, fun _ => 0, ρ⟩ fun r => ∀ c : Dev nD,
      r.2.mem ((c : Thread nD τ).loc main_v0)
        = Cert.Dequant.layer (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Dequant

end
-- ==== Proof.RefValue.lean ====
/-
  The reference program computes the block-dequantised linear layer.

  The reference spreads each scale over its 128 x 128 block by two broadcast-and-reshape pairs (144 x 56 to
  144 x 128 x 56 to 18432 x 56, then to 18432 x 56 x 128 to 18432 x 7168), so entry (o, i) of the spread array is
  scale (o / 128, i / 128); it multiplies the weight codes by it and contracts the activations' and the weights'
  feature axes.
-/
import proofs.«178263_j90950227460263_1_alg».proof.Proof.Gen.ReferenceIdeal.Read
import proofs.«178263_j90950227460263_1_alg».proof.Proof.Spec

noncomputable section

namespace Cert.ReferenceIdeal.Dequant

open Cert.ReferenceIdeal Cert.ReferenceIdeal.Read Idealize.ShloMosaic Idealize.ShloMosaic.ValueIdx

/-- The reference's last stage is the layer, entry by entry. -/
theorem ref_eq (x : (⟨S64x7168, .f32⟩ : BufTy).Contents (Elt Ideal)) (w : (⟨S18432x7168, .f32⟩ : BufTy).Contents (Elt Ideal))
    (s : (⟨S144x56, .f32⟩ : BufTy).Contents (Elt Ideal)) :
    val_main_v5 (F := Ideal) x w s = Cert.Dequant.layer x w s := by
  funext i
  rw [val_main_v5_apply]
  unfold Cert.Dequant.layer
  refine Finset.sum_congr rfl fun k _ => ?_
  rw [val_main_v4_apply, val_main_v3_apply, val_main_v2_apply, val_main_v1_apply, val_main_v0_apply]
  have h1 : (i 1).val < 18432 := (i 1).isLt
  have hk : k.val < 7168 := k.isLt
  have e1 : lidx_main_v5 i k = ix2 (⟨(i 0).val, (i 0).isLt⟩ : Fin 64) k :=
    funext fun a => Fin.ext (by match a with | ⟨0, _⟩ => rfl | ⟨1, _⟩ => rfl)
  have e2 : ridx_main_v5 i k = ix2 (⟨(i 1).val, (i 1).isLt⟩ : Fin 18432) k :=
    funext fun a => Fin.ext (by match a with | ⟨0, _⟩ => rfl | ⟨1, _⟩ => rfl)
  have e3 : idx_main_v0 (idx_main_v1 (idx_main_v2 (idx_main_v3 (ridx_main_v5 i k))))
      = ix2 (⟨(i 1).val / 128, by omega⟩ : Fin 144) (⟨k.val / 128, by omega⟩ : Fin 56) :=
    funext fun a => Fin.ext (by
      match a with
      | ⟨0, _⟩ =>
        show (((i 1).val * 7168 + k.val) / 7168 * 56 + ((i 1).val * 7168 + k.val) / 128 % 56) / 7168 = (i 1).val / 128
        omega
      | ⟨1, _⟩ =>
        show (((i 1).val * 7168 + k.val) / 7168 * 56 + ((i 1).val * 7168 + k.val) / 128 % 56) % 56 = k.val / 128
        omega)
  rw [e3, e1, e2]
  rfl

end Cert.ReferenceIdeal.Dequant

end
-- ==== Proof.lean ====
/-
  A linear layer with a block-quantised weight: y = x W^T where W[o, i] = w[o, i] * s[o / 128, i / 128].

  The kernel tiles the 18432 output features into 18 blocks of 1024 and, inside a block, adds up 56 products over
  chunks of 128 input features, scaling each chunk of weight codes by its column of block scales first and passing
  both operands through a narrower float format. The reference builds the whole dequantised weight and contracts once.
  Over the extended reals a change of float format is the identity and addition is commutative and associative, so
  both compute, entry by entry,
      y[r, o] = sum over i < 7168 of  x[r, i] * (w[o, i] * s[o / 128, i / 128])
  (Proof/Spec.lean). No finiteness of the inputs is needed: the two sides are the same sum of the same products.

  Proof/Chunk.lean reads one chunk's product at an index; Proof/Body.lean adds the chunks up into the body's block;
  Proof/KernelValue.lean places the 18 blocks in the output array; Proof/RefValue.lean reads the reference.
-/
import proofs.«178263_j90950227460263_1_alg».proof.Defs
import proofs.«178263_j90950227460263_1_alg».proof.Proof.Gen.Kernel
import proofs.«178263_j90950227460263_1_alg».proof.Proof.Gen.Kernel.Skeleton
import proofs.«178263_j90950227460263_1_alg».proof.Proof.Gen.Kernel.Launch
import proofs.«178263_j90950227460263_1_alg».proof.Proof.Gen.Kernel.Points
import proofs.«178263_j90950227460263_1_alg».proof.Proof.Gen.Kernel.Frame
import proofs.«178263_j90950227460263_1_alg».proof.Proof.Gen.KernelIdeal
import proofs.«178263_j90950227460263_1_alg».proof.Proof.Gen.KernelIdeal.Skeleton
import proofs.«178263_j90950227460263_1_alg».proof.Proof.Gen.KernelIdeal.Launch
import proofs.«178263_j90950227460263_1_alg».proof.Proof.Gen.KernelIdeal.Points
import proofs.«178263_j90950227460263_1_alg».proof.Proof.Gen.KernelIdeal.Frame
import proofs.«178263_j90950227460263_1_alg».proof.Proof.Gen.ReferenceIdeal
import proofs.«178263_j90950227460263_1_alg».proof.Proof.Gen.Pre_finite_inputs
import proofs.«178263_j90950227460263_1_alg».proof.Proof.Gen.KernelIdeal.Value
import proofs.«178263_j90950227460263_1_alg».proof.Proof.Gen.ReferenceIdeal.Run
import proofs.«178263_j90950227460263_1_alg».proof.Proof.Gen.ReferenceIdeal.Read
import proofs.«178263_j90950227460263_1_alg».proof.Proof.KernelValue
import proofs.«178263_j90950227460263_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, w and s, the idealised kernel's output array and the reference's result are both
    the block-dequantised layer of the arguments. -/
theorem algebraic : Cert.algebraic_KernelIdeal_ReferenceIdeal := by
  intro m ρ m' ρ' _ hagree
  refine ⟨_, Cert.KernelIdeal.Dequant.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Dequant.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
